-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000 : Shape := ⟨1, ![3200000]⟩
abbrev S100000x16 : Shape := ⟨2, ![100000, 16]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg1 : IVec S3200000 32) (main_v15 : IVec S_ 1) (main_c_5 : IVec S_ 32) : IVec S_ 1 :=
  let main_v16 : IVec S3200000 32 := broadcastInDim S3200000 ![] bcast_S_S3200000 main_c_5
  let main_v17 : IVec S3200000 1 := cmpi .sge main_arg1 main_v16
  let main_c_6 : IVec S_ 32 := constantI S_ 32 100000#32
  let main_v18 : IVec S3200000 32 := broadcastInDim S3200000 ![] bcast_S_S3200000 main_c_6
  let main_v19 : IVec S3200000 1 := cmpi .slt main_arg1 main_v18
  let main_v20 : IVec S3200000 1 := andi main_v17 main_v19
  let main_c_7 : IVec S_ 1 := constantI S_ 1 1#1
  let main_v21 : IVec S_ 1 := (fun x v => Host.reduce IntOp.andi x v reducesTo_S3200000_S_d0 h_S_) main_v20 main_c_7
  let main_v22 : IVec S_ 1 := andi main_v15 main_v21
  main_v22

def fn {F : FTy → Type} [FloatOps F] (main_arg0 : IVec S3200000 32) (main_arg1 : IVec S3200000 32) (main_arg2 : FVec F S100000x16 .f32) (main_arg3 : FVec F S100000x16 .f32) : IVec S_ 1 :=
  let main_v0 : FVec F S100000x16 .f32 := Host.absf main_arg2
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S100000x16 .f32 := Host.absf main_arg3
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_c_2 : IVec S_ 32 := constantI S_ 32 0#32
  let main_v9 : IVec S3200000 32 := broadcastInDim S3200000 ![] bcast_S_S3200000 main_c_2
  let main_v10 : IVec S3200000 1 := cmpi .sge main_arg0 main_v9
  let main_c_3 : IVec S_ 32 := constantI S_ 32 100000#32
  let main_v11 : IVec S3200000 32 := broadcastInDim S3200000 ![] bcast_S_S3200000 main_c_3
  let main_v12 : IVec S3200000 1 := cmpi .slt main_arg0 main_v11
  let main_v13 : IVec S3200000 1 := andi main_v10 main_v12
  let main_c_4 : IVec S_ 1 := constantI S_ 1 1#1
  let main_v14 : IVec S_ 1 := (fun x v => Host.reduce IntOp.andi x v reducesTo_S3200000_S_d0 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S3200000 : Shape := ⟨1, ![3200000]⟩
abbrev S100000x16 : Shape := ⟨2, ![100000, 16]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3200000x16 : Shape := ⟨2, ![3200000, 16]⟩
abbrev S5120x16 : Shape := ⟨2, ![5120, 16]⟩
abbrev S5120 : Shape := ⟨1, ![5120]⟩
abbrev S100000 : Shape := ⟨1, ![100000]⟩
abbrev S640000 : Shape := ⟨1, ![640000]⟩

abbrev nBuf : Space → Nat
  | .hbm => 78
  | .vmem => 12
  | .smem => 0
  | _ => 0

abbrev bufTy : (tb : Table) → Fin (tcTables nBuf tb) → BufTy
  | .hbm, ⟨0, _⟩ => ⟨S3200000, .i32⟩
  | .hbm, ⟨1, _⟩ => ⟨S3200000, .i32⟩
  | .hbm, ⟨2, _⟩ => ⟨S100000x16, .f32⟩
  | .hbm, ⟨3, _⟩ => ⟨S100000x16, .f32⟩
  | .hbm, ⟨4, _⟩ => ⟨S_, .i32⟩
  | .hbm, ⟨5, _⟩ => ⟨S3200000, .i32⟩
  | .hbm, ⟨6, _⟩ => ⟨S3200000, .i1⟩
  | .hbm, ⟨7, _⟩ => ⟨S_, .i32⟩
  | .hbm, ⟨8, _⟩ => ⟨S3200000, .i32⟩
  | .hbm, ⟨9, _⟩ => ⟨S3200000, .i32⟩
  | .hbm, ⟨10, _⟩ => ⟨S3200000, .i32⟩
  | .hbm, ⟨11, _⟩ => ⟨S3200000x1, .i32⟩
  | .hbm, ⟨12, _⟩ => ⟨S1, .i32⟩
  | .hbm, ⟨13, _⟩ => ⟨S_, .i32⟩
  | .hbm, ⟨14, _⟩ => ⟨S3200000x1, .i32⟩
  | .hbm, ⟨15, _⟩ => ⟨S3200000x1, .i1⟩
  | .hbm, ⟨16, _⟩ => ⟨S1x1, .i32⟩
  | .hbm, ⟨17, _⟩ => ⟨S3200000x1, .i32⟩
  | .hbm, ⟨18, _⟩ => ⟨S3200000x1, .i1⟩
  | .hbm, ⟨19, _⟩ => ⟨S3200000x1, .i1⟩
  | .hbm, ⟨20, _⟩ => ⟨S_, .i1⟩
  | .hbm, ⟨21, _⟩ => ⟨S3200000, .i1⟩
  | .hbm, ⟨22, _⟩ => ⟨S3200000x16, .f32⟩
  | .hbm, ⟨23, _⟩ => ⟨S3200000x16, .i1⟩
  | .hbm, ⟨24, _⟩ => ⟨S_, .f32⟩
  | .hbm, ⟨25, _⟩ => ⟨S3200000x16, .f32⟩
  | .hbm, ⟨26, _⟩ => ⟨S3200000x16, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S1, .i32⟩
  | .hbm, ⟨36, _⟩ => ⟨S_, .i32⟩
  | .hbm, ⟨37, _⟩ => ⟨S3200000x1, .i32⟩
  | .hbm, ⟨38, _⟩ => ⟨S3200000x1, .i1⟩
  | .hbm, ⟨39, _⟩ => ⟨S1x1, .i32⟩
  | .hbm, ⟨40, _⟩ => ⟨S3200000x1, .i32⟩
  | .hbm, ⟨41, _⟩ => ⟨S3200000x1, .i1⟩
  | .hbm, ⟨42, _⟩ => ⟨S3200000x1, .i1⟩
  | .hbm, ⟨43, _⟩ => ⟨S_, .i1⟩
  | .hbm, ⟨44, _⟩ => ⟨S3200000, .i1⟩
  | .hbm, ⟨45, _⟩ => ⟨S3200000x16, .f32⟩
  | .hbm, ⟨46, _⟩ => ⟨S3200000x16, .i1⟩
  | .hbm, ⟨47, _⟩ => ⟨S_, .f32⟩
  | .hbm, ⟨48, _⟩ => ⟨S3200000x16, .f32⟩
  | .hbm, ⟨49, _⟩ => ⟨S3200000x16, .f32⟩
  | .hbm, ⟨50, _⟩ => ⟨S3200000, .f32⟩
  | .hbm, ⟨51, _⟩ => ⟨S_, .f32⟩
  | .hbm, ⟨52, _⟩ => ⟨S100000, .f32⟩
  | .hbm, ⟨53, _⟩ => ⟨S3200000x1, .i32⟩
  | .hbm, ⟨54, _⟩ => ⟨S100000, .f32⟩
  | .hbm, ⟨55, _⟩ => ⟨S_, .i32⟩
  | .hbm, ⟨56, _⟩ => ⟨S3200000, .i32⟩
  | .hbm, ⟨57, _⟩ => ⟨S3200000, .i1⟩
  | .hbm, ⟨58, _⟩ => ⟨S_, .i32⟩
  | .hbm, ⟨59, _⟩ => ⟨S3200000, .i32⟩
  | .hbm, ⟨60, _⟩ => ⟨S3200000, .i32⟩
  | .hbm, ⟨61, _⟩ => ⟨S3200000, .i32⟩
  | .hbm, ⟨62, _⟩ => ⟨S3200000x1, .i32⟩
  | .hbm, ⟨63, _⟩ => ⟨S1, .i32⟩
  | .hbm, ⟨64, _⟩ => ⟨S_, .i32⟩
  | .hbm, ⟨65, _⟩ => ⟨S3200000x1, .i32⟩
  | .hbm, ⟨66, _⟩ => ⟨S3200000x1, .i1⟩
  | .hbm, ⟨67, _⟩ => ⟨S1x1, .i32⟩
  | .hbm, ⟨68, _⟩ => ⟨S3200000x1, .i32⟩
  | .hbm, ⟨69, _⟩ => ⟨S3200000x1, .i1⟩
  | .hbm, ⟨70, _⟩ => ⟨S3200000x1, .i1⟩
  | .hbm, ⟨71, _⟩ => ⟨S_, .i1⟩
  | .hbm, ⟨72, _⟩ => ⟨S3200000, .i1⟩
  | .hbm, ⟨73, _⟩ => ⟨S3200000, .f32⟩
  | .hbm, ⟨74, _⟩ => ⟨S_, .f32⟩
  | .hbm, ⟨75, _⟩ => ⟨S3200000, .f32⟩
  | .hbm, ⟨76, _⟩ => ⟨S3200000, .f32⟩
  | .hbm, ⟨77, _⟩ => ⟨S3200000, .f32⟩
  | .local _ .vmem, ⟨0, _⟩ => ⟨S5120x16, .f32⟩
  | .local _ .vmem, ⟨1, _⟩ => ⟨S5120x16, .f32⟩
  | .local _ .vmem, ⟨2, _⟩ => ⟨S5120x16, .f32⟩
  | .local _ .vmem, ⟨3, _⟩ => ⟨S5120x16, .f32⟩
  | .local _ .vmem, ⟨4, _⟩ => ⟨S5120, .f32⟩
  | .local _ .vmem, ⟨5, _⟩ => ⟨S5120, .f32⟩
  | .local _ .vmem, ⟨6, _⟩ => ⟨S640000, .f32⟩
  | .local _ .vmem, ⟨7, _⟩ => ⟨S640000, .f32⟩
  | .local _ .vmem, ⟨8, _⟩ => ⟨S640000, .f32⟩
  | .local _ .vmem, ⟨9, _⟩ => ⟨S640000, .f32⟩
  | .local _ .vmem, ⟨10, _⟩ => ⟨S640000, .f32⟩
  | .local _ .vmem, ⟨11, _⟩ => ⟨S640000, .f32⟩
  | _, _ => ⟨S3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_cst : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_cst : Ref sig .tc := ⟨.hbm, 74, rfl⟩
abbrev main_call2_v14 : Ref sig .tc := ⟨.hbm, 75, rfl⟩
abbrev main_v6 : Ref sig .tc := ⟨.hbm, 76, rfl⟩
abbrev main_v7 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S5120x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S640000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S640000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S640000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x16_0 : S3200000.BroadcastsInDim S3200000x16 (![0] : Fin 1 → Fin S3200000x16.rank)
  bcast_S_S3200000x16 : S_.BroadcastsInDim S3200000x16 (![] : Fin 0 → Fin S3200000x16.rank)
  inb_S5120x16_S5120x16_0_0 : ∀ a, (![0, 0] : Fin 2 → Nat) a + S5120x16.size a ≤ S5120x16.size a
  h_S5120x16 : 0 < S5120x16.numel
  shapeCasts_S5120x16_S5120x16 : S5120x16.ShapeCasts S5120x16
  reduces_S5120x16_S5120 : S5120x16.Reduces [1] S5120
  inb_S5120_S5120_0 : ∀ a, (![0] : Fin 1 → Nat) a + S5120.size a ≤ S5120.size a
  h_S5120 : 0 < S5120.numel
  bcast_S_S100000 : S_.BroadcastsInDim S100000 (![] : Fin 0 → Fin S100000.rank)
  inb_S640000_S640000_0 : ∀ a, (![0] : Fin 1 → Nat) a + S640000.size a ≤ S640000.size a
  h_S640000 : 0 < S640000.numel
  shapeCasts_S640000_S640000 : S640000.ShapeCasts S640000
  gather_S100000x16_S3200000x1_S3200000x16_1_0_n_n_0_1_116_wf : GatherDims.WF S100000x16 S3200000x1 S3200000x16 [1] [0] [] [0] [] 1 ![1, 16]
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x16.size a ≤ S3200000x16.size a
  hwx0_0 : ∀ i : grid0.Coords, EltTy.bits .f32 = 32 ∨ (Rect.block (s := S3200000x16) S5120x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x16.size a ≤ S3200000x16.size a
  hwx0_1 : ∀ i : grid0.Coords, EltTy.bits .f32 = 32 ∨ (Rect.block (s := S3200000x16) S5120x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5120.size a ≤ S3200000.size a
  hwx0_2 : ∀ i : grid0.Coords, EltTy.bits .f32 = 32 ∨ (Rect.block (s := S3200000) S5120.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S640000.size a ≤ S3200000.size a
  hwx1_0 : ∀ i : grid1.Coords, EltTy.bits .f32 = 32 ∨ (Rect.block (s := S3200000) S640000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S640000.size a ≤ S3200000.size a
  hwx1_1 : ∀ i : grid1.Coords, EltTy.bits .f32 = 32 ∨ (Rect.block (s := S3200000) S640000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S640000.size a ≤ S3200000.size a
  hwx1_2 : ∀ i : grid1.Coords, EltTy.bits .f32 = 32 ∨ (Rect.block (s := S3200000) S640000.size (cc1_transform_2 i) (hinb1_2 i)).WholeWords (EltTy.packing .f32)

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf

abbrev win0_0 : Pipeline.Window sig grid0 :=
  Pipeline.Window.ofSpec (Memref.whole main_v0) S5120x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5120x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5120.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S640000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S640000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S640000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S3200000 : Shape := ⟨1, ![3200000]⟩
abbrev S100000x16 : Shape := ⟨2, ![100000, 16]⟩
abbrev S_ : Shape := ⟨0, ![]⟩
abbrev S3200000x1 : Shape := ⟨2, ![3200000, 1]⟩
abbrev S3200000x16 : Shape := ⟨2, ![3200000, 16]⟩
abbrev S100000 : Shape := ⟨1, ![100000]⟩

abbrev nBuf : Space → Nat
  | .hbm => 50
  | .vmem => 0
  | .smem => 0
  | _ => 0

abbrev bufTy : (tb : Table) → Fin (tcTables nBuf tb) → BufTy
  | .hbm, ⟨0, _⟩ => ⟨S3200000, .i32⟩
  | .hbm, ⟨1, _⟩ => ⟨S3200000, .i32⟩
  | .hbm, ⟨2, _⟩ => ⟨S100000x16, .f32⟩
  | .hbm, ⟨3, _⟩ => ⟨S100000x16, .f32⟩
  | .hbm, ⟨4, _⟩ => ⟨S_, .i32⟩
  | .hbm, ⟨5, _⟩ => ⟨S3200000, .i32⟩
  | .hbm, ⟨6, _⟩ => ⟨S3200000, .i1⟩
  | .hbm, ⟨7, _⟩ => ⟨S_, .i32⟩
  | .hbm, ⟨8, _⟩ => ⟨S3200000, .i32⟩
  | .hbm, ⟨9, _⟩ => ⟨S3200000, .i32⟩
  | .hbm, ⟨10, _⟩ => ⟨S3200000, .i32⟩
  | .hbm, ⟨11, _⟩ => ⟨S3200000x1, .i32⟩
  | .hbm, ⟨12, _⟩ => ⟨S3200000x16, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x16, .f32⟩
  | .hbm, ⟨22, _⟩ => ⟨S3200000x16, .f32⟩
  | .hbm, ⟨23, _⟩ => ⟨S_, .f32⟩
  | .hbm, ⟨24, _⟩ => ⟨S3200000, .f32⟩
  | .hbm, ⟨25, _⟩ => ⟨S3200000, .f32⟩
  | .hbm, ⟨26, _⟩ => ⟨S3200000, .f32⟩
  | .hbm, ⟨27, _⟩ => ⟨S_, .f32⟩
  | .hbm, ⟨28, _⟩ => ⟨S3200000, .f32⟩
  | .hbm, ⟨29, _⟩ => ⟨S3200000, .f32⟩
  | .hbm, ⟨30, _⟩ => ⟨S_, .f32⟩
  | .hbm, ⟨31, _⟩ => ⟨S3200000, .f32⟩
  | .hbm, ⟨32, _⟩ => ⟨S3200000, .f32⟩
  | .hbm, ⟨33, _⟩ => ⟨S_, .f32⟩
  | .hbm, ⟨34, _⟩ => ⟨S100000, .f32⟩
  | .hbm, ⟨35, _⟩ => ⟨S3200000x1, .i32⟩
  | .hbm, ⟨36, _⟩ => ⟨S100000, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000, .f32⟩
  | .hbm, ⟨46, _⟩ => ⟨S_, .f32⟩
  | .hbm, ⟨47, _⟩ => ⟨S3200000, .f32⟩
  | .hbm, ⟨48, _⟩ => ⟨S3200000, .f32⟩
  | .hbm, ⟨49, _⟩ => ⟨S3200000, .f32⟩
  | _, _ => ⟨S3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x16_S3200000_d1 : S3200000x16.ReducesTo [1] S3200000
  h_S_ : 0 < S_.numel
  bcast_S_S100000 : S_.BroadcastsInDim S100000 (![] : Fin 0 → Fin S100000.rank)
  gather_S100000x16_S3200000x1_S3200000x16_1_0_n_n_0_1_116_wf : GatherDims.WF S100000x16 S3200000x1 S3200000x16 [1] [0] [] [0] [] 1 ![1, 16]
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf

class Facts : Prop extends Facts₀ where

variable [Facts]
-- ==== Proof.LibTypedRef.lean ====
/-
  A typed reference's transport, and its inverse.

  A line of a module-local function writes its result to a buffer through a transport along an equation of buffer
  types (`TRef.toBuf`) and a later line of the function reads it back through the inverse transport (`TRef.ofBuf`).
  Whatever the equation's proof, a value carried there and back is the value: the two transports cancel. So where
  the lines of such a function are read back as values, every pair "written, then read" disappears by these two
  lemmas, with no need to decide that the two buffer types are the same type; a transport is then left only where
  a line of the function reads a buffer written outside it, or writes one read outside it — at the ends of the
  function's stretch of lines, where it is the identity on a value that already has a name.
-/
import Idealize.ShloMosaic.Lib.StableHlo

namespace Idealize.ShloMosaic.StableHlo

/-- A value carried along an equation of types and back is itself. -/
theorem cast_cast_cancel {α β : Sort _} (h : α = β) (h' : β = α) (v : α) : cast h' (cast h v) = v := by subst h; rfl

/-- What a typed reference writes to its buffer and reads back is the value written. -/
theorem TRef.ofBuf_toBuf {sig : RefSig} {Val : EltTy → Type} {T : BufTy} (x : TRef sig T) (v : T.Contents Val) :
    x.ofBuf (x.toBuf v) = v := cast_cast_cancel _ _ v

/-- What is read from a typed reference's buffer and written back is what was there. -/
theorem TRef.toBuf_ofBuf {sig : RefSig} {Val : EltTy → Type} {T : BufTy} (x : TRef sig T) (v : x.ref.ty.Contents Val) :
    x.toBuf (x.ofBuf v) = v := cast_cast_cancel _ _ v

end Idealize.ShloMosaic.StableHlo
-- ==== Proof.LibTypedRefEnds.lean ====
/-
  A typed reference's transport at the ends of a function's stretch of lines.

  Inside a module-local function a value written through a typed reference and read back through it is the value
  (the two transports cancel). At the ends of the function's lines one transport is left: where a line reads a buffer
  that was written outside the function, and where the function's result is read outside it. There the transport is
  along an equation between a buffer's own type and the type the reference carries, and whatever that equation's proof
  is, the transported value is the value it started from, as a heterogeneous equality. So a reading of a buffer
  through a typed reference equals any value that the buffer's contents equal heterogeneously, and likewise a writing.
-/
import Idealize.ShloMosaic.Lib.StableHlo

namespace Idealize.ShloMosaic.StableHlo

variable {sig : RefSig} {Val : EltTy → Type} {T : BufTy}

/-- Contents read through a typed reference are the buffer's contents. -/
theorem TRef.ofBuf_eq_of_heq (x : TRef sig T) (v : x.ref.ty.Contents Val) (w : T.Contents Val) (h : HEq v w) : x.ofBuf v = w :=
  eq_of_heq ((cast_heq _ _).trans h)

/-- Contents written through a typed reference are the value written. -/
theorem TRef.toBuf_eq_of_heq (x : TRef sig T) (v : T.Contents Val) (w : x.ref.ty.Contents Val) (h : HEq v w) : x.toBuf v = w :=
  eq_of_heq ((cast_heq _ _).trans h)

end Idealize.ShloMosaic.StableHlo
-- ==== Proof.KernelHost.lean ====
/-
  What the two kernel regions find in their input arrays, as functions of the program's arguments.

  Before the first region the program looks up, for every edge, row src(e) of the first table and row dst(e) of the
  second, in "fill" mode: a negative index has 100000 added, the row is read, and a row whose index is not in
  0 … 99999 is replaced by a fill value. Between the regions every node collects (by a scatter-add from 0) the weights
  of the edges that leave it, and the collected total of src(e) is looked up for every edge, in the same mode.
  These are the terms the host operations compose; the first region's result passes through the host operations
  between the regions unchanged, because none of them writes it.
-/
import proofs.«425733_j5463198400723_2_alg».proof.Proof.Gen.KernelIdeal.Frame
import Idealize.ShloMosaic.Lib.StableHlo.Run
import proofs.«425733_j5463198400723_2_alg».proof.Proof.LibTypedRef
import proofs.«425733_j5463198400723_2_alg».proof.Proof.LibTypedRefEnds

set_option maxRecDepth 16384

noncomputable section

namespace Cert.KernelIdeal.Glue

open Cert.KernelIdeal Cert.KernelIdeal.Gen
open Idealize.ShloMosaic Idealize.ShloMosaic.TcCoe Idealize.ShloMosaic.StableHlo
open Idealize.SL Idealize.SL.Sem

variable {F : FTy → Type} [FloatOps F]

/-- The start indices of a lookup: the index array with 100000 added to its negative entries, as a column. -/
def startIdx (x : IVec S3200000 32) : IVec S3200000x1 32 :=
  broadcastInDim S3200000x1 ![0] bcast_S3200000_S3200000x1_0
    (select (cmpi .slt x (broadcastInDim S3200000 ![] bcast_S_S3200000 (constantI S_ 32 0#32)))
      (addi x (broadcastInDim S3200000 ![] bcast_S_S3200000 (constantI S_ 32 100000#32))) x)

/-- Which edges have their start index in 0 … 99999. -/
def valid (s : IVec S3200000x1 32) : IVec S3200000 1 :=
  Host.reduce IntOp.andi
    (andi (cmpi .sge s (broadcastInDim S3200000x1 ![] bcast_S_S3200000x1 (constantI S_ 32 0#32)))
      (cmpi .sle s (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The lookup of table rows in fill mode. -/
def takeRows (tab : FVec F S100000x16 .f32) (x : IVec S3200000 32) : FVec F S3200000x16 .f32 :=
  select (broadcastInDim S3200000x16 ![0] bcast_S3200000_S3200000x16_0 (valid (startIdx x)))
    (Host.gather gather_S100000x16_S3200000x1_S3200000x16_1_0_n_n_0_1_116 tab (startIdx x))
    (broadcastInDim S3200000x16 ![] bcast_S_S3200000x16 (constant S_ .f32 0x7FC00000#32))

/-- The lookup of single numbers in fill mode. -/
def takeOne (v : FVec F S100000 .f32) (x : IVec S3200000 32) : FVec F S3200000 .f32 :=
  select (valid (startIdx x))
    (Host.gather gather_S100000_S3200000x1_S3200000_n_0_n_n_0_1_1 v (startIdx x))
    (broadcastInDim S3200000 ![] bcast_S_S3200000 (constant S_ .f32 0x7FC00000#32))

/-- What every node collects from the edge weights w: a scatter-add from 0 at the source indices. -/
def collect (x : IVec S3200000 32) (w : FVec F S3200000 .f32) : FVec F S100000 .f32 :=
  Host.scatterAdd scatter_S100000_S3200000x1_S3200000_n_0_0_1
    (broadcastInDim S100000 ![] bcast_S_S100000 (constant S_ .f32 0x00000000#32))
    (broadcastInDim S3200000x1 ![0] bcast_S3200000_S3200000x1_0 x) w

variable (m : (ℓ : Loc nD τ sig) → Buf (Elt F) ℓ) (ρ : Dev nD → PrngReg)

/-! Reading an argument's buffer, or the collected totals' buffer, through a typed reference gives its contents. -/

theorem read_src (p q r) (v : IVec S3200000 32) : (TRef.of (T := ⟨S3200000, .i32⟩) main_arg0 p q r).ofBuf (Val := Elt F) v = v :=
  TRef.ofBuf_eq_of_heq _ _ _ HEq.rfl
theorem read_dst (p q r) (v : IVec S3200000 32) : (TRef.of (T := ⟨S3200000, .i32⟩) main_arg1 p q r).ofBuf (Val := Elt F) v = v :=
  TRef.ofBuf_eq_of_heq _ _ _ HEq.rfl
theorem read_tab1 (p q r) (v : FVec F S100000x16 .f32) : (TRef.of (T := ⟨S100000x16, .f32⟩) main_arg2 p q r).ofBuf (Val := Elt F) v = v :=
  TRef.ofBuf_eq_of_heq _ _ _ HEq.rfl
theorem read_tab2 (p q r) (v : FVec F S100000x16 .f32) : (TRef.of (T := ⟨S100000x16, .f32⟩) main_arg3 p q r).ofBuf (Val := Elt F) v = v :=
  TRef.ofBuf_eq_of_heq _ _ _ HEq.rfl
theorem read_totals (p q r) (v : FVec F S100000 .f32) : (TRef.of (T := ⟨S100000, .f32⟩) main_v5 p q r).ofBuf (Val := Elt F) v = v :=
  TRef.ofBuf_eq_of_heq _ _ _ HEq.rfl

set_option maxHeartbeats 2000000 in
/-- The first region's first input array: the rows of the first table at the source indices. -/
theorem entry_x (c : Dev nD) :
    V2 m ρ c main_v0 = takeRows (m ((c : Thread nD τ).loc main_arg2)) (m ((c : Thread nD τ).loc main_arg0)) := by
  show StableHlo.after hostOps0_1 (StableHlo.after hostOps0 (W0 m ρ c)) (Proc.devRef .tc main_v0) = _
  simp only [hostOps0, hostOps0_1]
  after_results_simp
  simp only [TRef.ofBuf_toBuf, read_src, read_tab1]
  exact TRef.toBuf_eq_of_heq _ _ _ HEq.rfl

set_option maxHeartbeats 2000000 in
/-- The first region's second input array: the rows of the second table at the destination indices. -/
theorem entry_y (c : Dev nD) :
    V2 m ρ c main_v1 = takeRows (m ((c : Thread nD τ).loc main_arg3)) (m ((c : Thread nD τ).loc main_arg1)) := by
  show StableHlo.after hostOps0_1 (StableHlo.after hostOps0 (W0 m ρ c)) (Proc.devRef .tc main_v1) = _
  simp only [hostOps0, hostOps0_1]
  after_results_simp
  simp only [TRef.ofBuf_toBuf, read_dst, read_tab2]
  exact TRef.toBuf_eq_of_heq _ _ _ HEq.rfl

set_option maxHeartbeats 2000000 in
/-- The source indices are still the argument's when the first region ends. -/
theorem W3_src (c : Dev nD) : W3 m ρ c (Proc.devRef .tc main_arg0) = m ((c : Thread nD τ).loc main_arg0) := by
  rw [W3_of_ne m ρ c main_arg0 (by decide)]
  show StableHlo.after hostOps0_1 (StableHlo.after hostOps0 (W0 m ρ c)) (Proc.devRef .tc main_arg0) = _
  simp only [hostOps0, hostOps0_1]
  after_results_simp

set_option maxHeartbeats 2000000 in
/-- The second region's first input array: the first region's result, untouched by the host operations between. -/
theorem entry_w (c : Dev nD) : V5 m ρ c main_v2 = (dat0 (V2 m ρ) c).arrAt 2 cfg0.N := by
  show StableHlo.after hostOps1_1 (StableHlo.after hostOps1 (W3 m ρ c)) (Proc.devRef .tc main_v2) = _
  simp only [hostOps1, hostOps1_1]
  after_results_simp
  exact W3_arr m ρ c 2

set_option maxHeartbeats 2000000 in
/-- The second region's second input array: for every edge, what its source node collected from the first region's
    result. -/
theorem entry_r (c : Dev nD) :
    V5 m ρ c main_v6 = takeOne (collect (m ((c : Thread nD τ).loc main_arg0)) ((dat0 (V2 m ρ) c).arrAt 2 cfg0.N))
      (m ((c : Thread nD τ).loc main_arg0)) := by
  show StableHlo.after hostOps1_1 (StableHlo.after hostOps1 (W3 m ρ c)) (Proc.devRef .tc main_v6) = _
  simp only [hostOps1, hostOps1_1]
  after_results_simp
  simp only [TRef.ofBuf_toBuf, read_src, read_totals]
  rw [W3_src m ρ c, show W3 m ρ c (Proc.devRef .tc main_v2) = (dat0 (V2 m ρ) c).arrAt 2 cfg0.N from W3_arr m ρ c 2]
  exact TRef.toBuf_eq_of_heq _ _ _ HEq.rfl

end Cert.KernelIdeal.Glue

end
-- ==== Proof.Spec.lean ====
/-
  What both programs compute, edge by edge, on the extended reals.

  There are 3200000 edges; edge e has a source row x(e, ·) and a destination row y(e, ·) of 16 numbers each.
    * The score of an edge is the logistic function of the inner product of its two rows:
        score x y e = 1 / (1 + exp (-(Σ_k x(e,k) · y(e,k)))).
    * The normalized weight of an edge divides its weight by the total r(e) its source node collected, plus
      a fixed small constant (the single-precision number nearest to 1e-8, the same word in both programs):
        normalize w r e = w(e) / (r(e) + ε).
  Nothing here needs the numbers to be finite: both programs perform these same operations in this same order.
-/
import Idealize.ShloMosaic.PureOps.Ideal
import Idealize.ShloMosaic.Lib.ValueIdx

noncomputable section

namespace Cert.Spec

open Idealize.ShloMosaic Idealize.ShloMosaic.ValueIdx

/-- One number per edge. -/
abbrev Edges : Shape := ⟨1, ![3200000]⟩
/-- One row of 16 numbers per edge. -/
abbrev EdgeRows : Shape := ⟨2, ![3200000, 16]⟩

/-- Entry k of edge e's row, as an index of the array of rows. -/
abbrev rowEntry (e : Edges.Idx) (k : Fin 16) : EdgeRows.Idx := ix2 (⟨(e 0).val, (e 0).isLt⟩ : Fin 3200000) k

/-- The logistic function of the inner product of the edge's two rows. -/
def rowScore (x y : EdgeRows.Idx → EReal) : Edges.Idx → EReal :=
  fun e => Ideal.logistic (∑ k : Fin 16, x (rowEntry e k) * y (rowEntry e k))

/-- The weight over the collected total plus the small constant. -/
def normalize (w r : Edges.Idx → EReal) : Edges.Idx → EReal :=
  fun e => Ideal.div (w e) (r e + Ideal.ofBits .f32 0x322BCC77#32)

/-- One number per node; one row of 16 numbers per node; one index per edge as a column; a single number. -/
abbrev Nodes : Shape := ⟨1, ![100000]⟩
abbrev Table : Shape := ⟨2, ![100000, 16]⟩
abbrev EdgeCol : Shape := ⟨2, ![3200000, 1]⟩
abbrev One : Shape := ⟨0, ![]⟩

/-- The whole computation. Edge e takes row src(e) of the first table and row dst(e) of the second; its weight w(e) is
    the score of the two rows; every node collects the weights of the edges that leave it (starting from 0); and the
    edge's result is its weight normalized by what its source node collected. The row lookups, the collection and the
    lookup of the collected totals are the host's gather and scatter-add at the programs' own dimension numbers,
    which are parameters here. -/
def edgeWeights (g2 : GatherDims Table EdgeCol EdgeRows) (g1 : GatherDims Nodes EdgeCol Edges) (sc : ScatterDims Nodes EdgeCol Edges)
    (hcol : Edges.BroadcastsInDim EdgeCol (![0] : Fin 1 → Fin EdgeCol.rank)) (hz : One.BroadcastsInDim Nodes (![] : Fin 0 → Fin Nodes.rank))
    (src dst : IVec Edges 32) (emb1 emb2 : Table.Idx → EReal) : Edges.Idx → EReal :=
  normalize
    (rowScore (Host.gather g2 emb1 (broadcastInDim EdgeCol ![0] hcol src)) (Host.gather g2 emb2 (broadcastInDim EdgeCol ![0] hcol dst)))
    (Host.gather g1
      (Host.scatterAdd (F := Ideal) (φ := .f32) sc (broadcastInDim Nodes ![] hz (constant (F := Ideal) One .f32 0x00000000#32))
        (broadcastInDim EdgeCol ![0] hcol src)
        (rowScore (Host.gather g2 emb1 (broadcastInDim EdgeCol ![0] hcol src)) (Host.gather g2 emb2 (broadcastInDim EdgeCol ![0] hcol dst))))
      (broadcastInDim EdgeCol ![0] hcol src))

end Cert.Spec

end
-- ==== Proof.ScoreRegion.lean ====
/-
  The first kernel region, read as a value.

  The region runs over 625 grid points; point t loads block t (5120 consecutive edges, 16 numbers each) of the source
  rows x and of the destination rows y, multiplies them entry by entry, sums each edge's 16 products and stores the
  logistic function of that sum into block t of the result (5120 edges). The blocks tile the 3200000 edges, so after
  the region the result array is Spec.rowScore x y: edge e lies in block e / 5120, and what that block stores at e is
  the logistic function of the inner product of rows x(e, ·) and y(e, ·). The statement is for any contents V of the
  buffers at the region's entry.
-/
import proofs.«425733_j5463198400723_2_alg».proof.Proof.Gen.KernelIdeal.Frame
import proofs.«425733_j5463198400723_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Score

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The source rows and the destination rows as the region finds them, as arrays of extended reals. -/
abbrev xRows (c : Dev nD) : S3200000x16.Idx → EReal := V c main_v0
abbrev yRows (c : Dev nD) : S3200000x16.Idx → EReal := V c main_v1

theorem offset_zero1 : (![0] : Fin 1 → Nat) = fun _ => 0 := funext fun a => by fin_cases a <;> rfl
theorem offset_zero2 : (![0, 0] : Fin 2 → Nat) = fun _ => 0 := funext fun a => by fin_cases a <;> rfl

/-- Entry k of the row of the block's edge q. -/
abbrev blockRow (q : S5120.Idx) (k : Fin 16) : S5120x16.Idx := fun a => match a with
  | ⟨0, _⟩ => ⟨(q 0).val, (q 0).isLt⟩
  | ⟨1, _⟩ => ⟨k.val, k.isLt⟩

/-- The body's stored value at edge q of the block: the logistic function of the inner product of the edge's two
    loaded rows (the lane sum over the 16 products, on the extended reals a plain finite sum). -/
theorem payload_apply (x0 x1 : Vec Ideal S5120x16 .f32) (q : S5120.Idx) :
    k0_pay1 (F := Ideal) x0 x1 q = Ideal.logistic (∑ k : Fin 16, (x0 (blockRow q k) : EReal) * (x1 (blockRow q k) : EReal)) := by
  unfold k0_pay1
  simp only [shapeCast_self]
  show Ideal.logistic (multiReduction (F := Ideal) .add [1] S5120 (mulf x0 x1) 0x00000000#32 reduces_S5120x16_S5120 (.inl rfl) rfl q) = _
  refine congrArg Ideal.logistic ?_
  refine (Ideal.multiReduction_add_single (mulf x0 x1) 0x00000000#32 reduces_S5120x16_S5120 (.inl rfl) rfl q).trans ?_
  refine Finset.sum_congr rfl fun k _ => ?_
  have e : reduces_S5120x16_S5120.lift q k = blockRow q k :=
    funext fun a => Fin.ext (by match a with | ⟨0, _⟩ => rfl | ⟨1, _⟩ => rfl)
  rw [e]
  rfl

/-- At point t the two input windows are on block (t, 0) and the output window on block t. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = t.val :=
  (by decide +kernel : ∀ t : Fin grid0.N, _)

/-- What point t writes back is block t of the scores of the arrays the region found. -/
theorem flushed_eq (c : Dev nD) (t : Fin cfg0.N) :
    (dat0 V c).flushed 2 t = ((cfg0.win 2).blk t).view.read (Elt Ideal) (Spec.rowScore (V c main_v0) (V c main_v1)) := by
  show (cfg0.win 2).cut (grid0.coords t) ((dat0 V c).after 2 t) = _
  rw [after0_2]
  unfold out0_2
  rw [View.canon_unit_zero offset_zero1]
  simp only [View.ld_unit_zero (S := S5120x16) offset_zero2]
  obtain ⟨e0, e1, e2, e3, e4⟩ := index_facts t
  funext j
  refine (payload_apply (iblk0 V c 0 t) (iblk0 V c 1 t) j).trans ?_
  show _ = Ideal.logistic (∑ k : Fin 16, xRows V c (Spec.rowEntry (((cfg0.win 2).blk t).view.emb j) k) * yRows V c (Spec.rowEntry (((cfg0.win 2).blk t).view.emb j) k))
  refine congrArg Ideal.logistic (Finset.sum_congr rfl fun k _ => ?_)
  show xRows V c (((cfg0.win 0).blk t).view.emb (blockRow j k)) * yRows V c (((cfg0.win 1).blk t).view.emb (blockRow j k)) = _
  have h0 : ((cfg0.win 0).blk t).view.emb (blockRow j k) = Spec.rowEntry (((cfg0.win 2).blk t).view.emb j) k := by
    funext a; apply Fin.ext
    match a with
    | ⟨0, _⟩ => show win0_0.index t (0 : Fin 2) * 5120 + 1 * (j 0).val = win0_2.index t (0 : Fin 1) * 5120 + 1 * (j 0).val; omega
    | ⟨1, _⟩ => show win0_0.index t (1 : Fin 2) * 16 + 1 * k.val = k.val; omega
  have h1 : ((cfg0.win 1).blk t).view.emb (blockRow j k) = Spec.rowEntry (((cfg0.win 2).blk t).view.emb j) k := by
    funext a; apply Fin.ext
    match a with
    | ⟨0, _⟩ => show win0_1.index t (0 : Fin 2) * 5120 + 1 * (j 0).val = win0_2.index t (0 : Fin 1) * 5120 + 1 * (j 0).val; omega
    | ⟨1, _⟩ => show win0_1.index t (1 : Fin 2) * 16 + 1 * k.val = k.val; omega
  rw [h0, h1]

/-- An edge is in point t's block iff it lies in the 5120 edges from 5120 · t on. -/
theorem mem_block (t : Fin cfg0.N) (i : S3200000.Idx) :
    i ∈ ((cfg0.win 2).blk t).view.set ↔ ∀ a : Fin 1, win0_2.index t a * S5120.size a ≤ (i a).val ∧ (i a).val < win0_2.index t a * S5120.size a + S5120.size a := by
  show i ∈ ((View.whole main_v2).slice (win0_2.rect t)).set ↔ _
  rw [View.set_slice_whole, Rect.mem_set_unit]
  exact Iff.rfl

/-- Every edge is in the block of the point e / 5120. -/
theorem cover (i : S3200000.Idx) : ∃ t : Fin cfg0.N, (cfg0.win 2).flush t = true ∧ i ∈ ((cfg0.win 2).blk t).view.set := by
  have hi0 : (i 0).val < 3200000 := (i 0).isLt
  have hN : cfg0.N = 625 := N_0
  refine ⟨⟨(i 0).val / 5120, by rw [hN]; omega⟩, flush0_2 _, ?_⟩
  rw [mem_block]
  intro a
  obtain ⟨e0, e1, e2, e3, e4⟩ := index_facts ⟨(i 0).val / 5120, by rw [hN]; omega⟩
  match a with
  | ⟨0, _⟩ =>
    show win0_2.index _ (0 : Fin 1) * 5120 ≤ (i 0).val ∧ (i 0).val < win0_2.index _ (0 : Fin 1) * 5120 + 5120
    rw [e4]
    show (i 0).val / 5120 * 5120 ≤ (i 0).val ∧ (i 0).val < (i 0).val / 5120 * 5120 + 5120
    omega

/-- After the region the result array holds the scores of the arrays the region found. -/
theorem final (c : Dev nD) : (dat0 V c).arrAt 2 cfg0.N = Spec.rowScore (V c main_v0) (V c main_v1) :=
  (dat0 V c).arrAt_eq_of_cover 2 _ (fun t _ => flushed_eq V c t) cover

end Cert.KernelIdeal.Score

end
-- ==== Proof.NormalizeRegion.lean ====
/-
  The second kernel region, read as a value.

  The region runs over 5 grid points; point t loads block t (640000 consecutive edges) of the weights w and of the
  collected totals r, and stores w / (r + ε) into block t of the result. The blocks tile the 3200000 edges, so after the
  region the result array is Spec.normalize w r: edge e lies in block e / 640000, and what that block stores at e is
  the quotient at e. The statement is for any contents V of the buffers at the region's entry.
-/
import proofs.«425733_j5463198400723_2_alg».proof.Proof.Gen.KernelIdeal.Frame
import proofs.«425733_j5463198400723_2_alg».proof.Proof.Spec
import Idealize.ShloMosaic.Lib.Pipeline.Value
import Idealize.ShloMosaic.Lib.ValueIdx

set_option maxRecDepth 16384

noncomputable section

namespace Cert.KernelIdeal.Normalize

open Cert.KernelIdeal Cert.KernelIdeal.Gen Cert.KernelIdeal.Facts₀
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The weights and the collected totals as the region finds them, as arrays of extended reals. -/
abbrev wArr (c : Dev nD) : S3200000.Idx → EReal := V c main_v2
abbrev rArr (c : Dev nD) : S3200000.Idx → EReal := V c main_v6

theorem offset_zero : (![0] : Fin 1 → Nat) = fun _ => 0 := funext fun a => by fin_cases a <;> rfl

/-- The body's stored value is the quotient of its first loaded block by its second plus the constant, lane by lane. -/
theorem payload_eq (x0 x1 : Vec Ideal S640000 .f32) :
    k1_pay1 (F := Ideal) x0 x1 = divf x0 (addf x1 (broadcast S640000 (Scalar.ofBits .f32 0x322BCC77#32))) := by
  unfold k1_pay1
  simp only [shapeCast_self]

/-- The three windows move together: at point t each is on block t. -/
theorem index_facts : ∀ t : Fin cfg1.N, win1_0.index t (0 : Fin 1) = t.val ∧ win1_1.index t (0 : Fin 1) = t.val
    ∧ win1_2.index t (0 : Fin 1) = t.val :=
  (by decide +kernel : ∀ t : Fin grid1.N, _)

/-- What point t writes back is block t of the normalized weights of the arrays the region found. -/
theorem flushed_eq (c : Dev nD) (t : Fin cfg1.N) :
    (dat1 V c).flushed 2 t = ((cfg1.win 2).blk t).view.read (Elt Ideal) (Spec.normalize (V c main_v2) (V c main_v6)) := by
  show (cfg1.win 2).cut (grid1.coords t) ((dat1 V c).after 2 t) = _
  rw [after1_2]
  unfold out1_2
  rw [View.canon_unit_zero offset_zero]
  simp only [View.ld_unit_zero (S := S640000) offset_zero]
  rw [payload_eq]
  obtain ⟨e0, e1, e2⟩ := index_facts t
  funext j
  show Ideal.div (wArr V c (((cfg1.win 0).blk t).view.emb j)) (rArr V c (((cfg1.win 1).blk t).view.emb j) + Ideal.ofBits .f32 0x322BCC77#32)
    = Ideal.div (wArr V c (((cfg1.win 2).blk t).view.emb j)) (rArr V c (((cfg1.win 2).blk t).view.emb j) + Ideal.ofBits .f32 0x322BCC77#32)
  have h0 : ((cfg1.win 0).blk t).view.emb j = ((cfg1.win 2).blk t).view.emb j := by
    funext a; apply Fin.ext
    match a with
    | ⟨0, _⟩ => show win1_0.index t (0 : Fin 1) * 640000 + 1 * (j 0).val = win1_2.index t (0 : Fin 1) * 640000 + 1 * (j 0).val; omega
  have h1 : ((cfg1.win 1).blk t).view.emb j = ((cfg1.win 2).blk t).view.emb j := by
    funext a; apply Fin.ext
    match a with
    | ⟨0, _⟩ => show win1_1.index t (0 : Fin 1) * 640000 + 1 * (j 0).val = win1_2.index t (0 : Fin 1) * 640000 + 1 * (j 0).val; omega
  rw [h0, h1]

/-- An edge is in point t's block iff it lies in the 640000 edges from 640000 · t on. -/
theorem mem_block (t : Fin cfg1.N) (i : S3200000.Idx) :
    i ∈ ((cfg1.win 2).blk t).view.set ↔ ∀ a : Fin 1, win1_2.index t a * S640000.size a ≤ (i a).val ∧ (i a).val < win1_2.index t a * S640000.size a + S640000.size a := by
  show i ∈ ((View.whole main_v7).slice (win1_2.rect t)).set ↔ _
  rw [View.set_slice_whole, Rect.mem_set_unit]
  exact Iff.rfl

/-- Every edge is in the block of the point e / 640000. -/
theorem cover (i : S3200000.Idx) : ∃ t : Fin cfg1.N, (cfg1.win 2).flush t = true ∧ i ∈ ((cfg1.win 2).blk t).view.set := by
  have hi0 : (i 0).val < 3200000 := (i 0).isLt
  have hN : cfg1.N = 5 := N_1
  refine ⟨⟨(i 0).val / 640000, by rw [hN]; omega⟩, flush1_2 _, ?_⟩
  rw [mem_block]
  intro a
  obtain ⟨e0, e1, e2⟩ := index_facts ⟨(i 0).val / 640000, by rw [hN]; omega⟩
  match a with
  | ⟨0, _⟩ =>
    show win1_2.index _ (0 : Fin 1) * 640000 ≤ (i 0).val ∧ (i 0).val < win1_2.index _ (0 : Fin 1) * 640000 + 640000
    rw [e2]
    show (i 0).val / 640000 * 640000 ≤ (i 0).val ∧ (i 0).val < (i 0).val / 640000 * 640000 + 640000
    omega

/-- After the region the result array holds the normalized weights of the arrays the region found. -/
theorem final (c : Dev nD) : (dat1 V c).arrAt 2 cfg1.N = Spec.normalize (V c main_v2) (V c main_v6) :=
  (dat1 V c).arrAt_eq_of_cover 2 _ (fun t _ => flushed_eq V c t) cover

end Cert.KernelIdeal.Normalize

end
-- ==== Proof.LibReduceAnd.lean ====
/-
  An all-reduce by "and" over ones is one.

  The library reads a 1 result back (every operand bit that reduces into it was 1). This is the other direction:
  when the initial bit is 1 and every operand bit that reduces into result index j is 1, the result at j is 1.
  A host reduce is a left fold from the initial value over the operand positions that reduce into j, so the
  statement is the fold's.
-/
import Idealize.ShloMosaic.Lib.ReduceAll

namespace Idealize.ShloMosaic

namespace IntOp

/-- A left fold by "and" from 1 over bits that are all 1 is 1. -/
theorem foldl_andi_of_forall {ι : Type} (f : ι → BitVec 1) :
    ∀ (l : List ι) (init : BitVec 1), init = 1#1 → (∀ n ∈ l, f n = 1#1) → l.foldl (fun r n => andi r (f n)) init = 1#1
  | [], _, h, _ => h
  | a :: l, _, h, hl =>
    foldl_andi_of_forall f l _ (andi_eq_one.2 ⟨h, hl a List.mem_cons_self⟩) (fun n hn => hl n (List.mem_cons_of_mem _ hn))

end IntOp

namespace Host

variable {s t u : Shape} {axes : List (Fin s.rank)}

/-- A reduce by "and" from the bit 1 is 1 at j when every operand bit that reduces into j is 1. -/
theorem reduce_andi_of_forall (x : s.Idx → BitVec 1) (init : u.Idx → BitVec 1) (h : s.ReducesTo axes t) (hu : 0 < u.numel)
    (j : t.Idx) (hinit : init (Shape.Idx.first hu) = 1#1) (hx : ∀ i, h.drop i = j → x i = 1#1) :
    Host.reduce IntOp.andi x init h hu j = 1#1 := by
  unfold Host.reduce
  refine IntOp.foldl_andi_of_forall (fun n => x (s.rowMajor.symm n)) _ _ hinit (fun n hn => hx _ ?_)
  exact of_decide_eq_true (List.mem_filter.1 hn).2

end Host

end Idealize.ShloMosaic
-- ==== Proof.IndexRange.lean ====
/-
  Index words that lie in the range of a table of 100000 rows.

  A 32-bit word x with 0 ≤ x (signed) and x < 100000 (signed) is the natural number x.toNat < 100000.
  For such a word:
    * it is not negative, so "add 100000 when negative" leaves it as it is;
    * the two comparisons 0 ≤ x and x ≤ 99999 (signed) both hold, so a validity mask built from them is all ones;
    * a selection under an all-ones mask is its first branch.
  The vector statements below are these word facts at every index of an array of any shape.
-/
import Idealize.ShloMosaic.PureOps
import Idealize.ShloMosaic.Lib.StableHlo.Predicate
import proofs.«425733_j5463198400723_2_alg».proof.Proof.LibReduceAnd

namespace Cert.IndexRange

open Idealize.ShloMosaic

/-! ## One word -/

/-- Signed 0 ≤ x and x < 100000 say that the word, read as a natural number, is below 100000. -/
theorem toNat_lt_of_cmp {x : BitVec 32} (h0 : IntOp.cmpi .sge x 0#32 = 1#1) (h1 : IntOp.cmpi .slt x 100000#32 = 1#1) :
    x.toNat < 100000 := by
  simp only [IntOp.cmpi, StableHlo.Predicate.ofBool_eq_one_iff, BitVec.sle, BitVec.slt, decide_eq_true_eq] at h0 h1
  have e0 : (0#32 : BitVec 32).toInt = 0 := by decide
  have e1 : (100000#32 : BitVec 32).toInt = 100000 := by decide
  rw [e0] at h0; rw [e1] at h1
  have h := BitVec.toInt_eq_toNat_cond x
  split at h <;> omega

/-- A word below 100000 is not negative. -/
theorem slt_zero_ne_one {x : BitVec 32} (hx : x.toNat < 100000) : IntOp.cmpi .slt x 0#32 ≠ 1#1 := by
  intro h
  have := (StableHlo.Predicate.slt_iff_toNat (a := x) (b := 0#32) (by omega) (by decide)).1 h
  simp at this

/-- A word below 100000 is signed-at-least 0. -/
theorem sge_zero {x : BitVec 32} (hx : x.toNat < 100000) : IntOp.cmpi .sge x 0#32 = 1#1 :=
  (StableHlo.Predicate.sge_iff_toNat (a := x) (b := 0#32) (by omega) (by decide)).2 (by simp)

/-- A word below 100000 is signed-at-most 99999. -/
theorem sle_last {x : BitVec 32} (hx : x.toNat < 100000) : IntOp.cmpi .sle x 99999#32 = 1#1 :=
  (StableHlo.Predicate.sle_iff_toNat (a := x) (b := 99999#32) (by omega) (by decide)).2
    (by have : (99999#32 : BitVec 32).toNat = 99999 := by decide
        omega)

/-- "x + 100000 if x < 0 else x" is x for a word below 100000. -/
theorem wrap_word {x : BitVec 32} (hx : x.toNat < 100000) (y : BitVec 32) :
    Scalar.select (IntOp.cmpi .slt x 0#32) y x = x := by
  unfold Scalar.select
  exact if_neg (slt_zero_ne_one hx)

/-! ## Arrays of words -/

variable {s t u : Shape}

/-- The wrap of negative indices, index by index, leaves an array of words below 100000 as it is. -/
theorem wrap_eq (x zeros y : IVec s 32) (hz : ∀ i, zeros i = 0#32) (hx : ∀ i, (x i).toNat < 100000) :
    select (cmpi .slt x zeros) y x = x := by
  funext i
  show Scalar.select (IntOp.cmpi .slt (x i) (zeros i)) (y i) (x i) = x i
  rw [hz]
  exact wrap_word (hx i) _

/-- The validity mask "0 ≤ index ≤ 99999, all along the reduced axes" of an array of words below 100000 is all ones. -/
theorem inRange_all {axes : List (Fin s.rank)} (x zeros last : IVec s 32) (hz : ∀ i, zeros i = 0#32) (hl : ∀ i, last i = 99999#32)
    (hx : ∀ i, (x i).toNat < 100000) (init : u.Idx → BitVec 1) (h : s.ReducesTo axes t) (hu : 0 < u.numel)
    (hinit : init (Shape.Idx.first hu) = 1#1) :
    Host.reduce IntOp.andi (andi (cmpi .sge x zeros) (cmpi .sle x last)) init h hu = fun _ => 1#1 := by
  funext j
  refine Host.reduce_andi_of_forall _ _ h hu j hinit (fun i _ => ?_)
  show IntOp.andi (IntOp.cmpi .sge (x i) (zeros i)) (IntOp.cmpi .sle (x i) (last i)) = 1#1
  rw [hz, hl]
  exact IntOp.andi_eq_one.2 ⟨sge_zero (hx i), sle_last (hx i)⟩

/-- A selection under an all-ones mask is its first branch. -/
theorem select_ones {α : Type} (c : IVec s 1) (hc : ∀ i, c i = 1#1) (a b : s.Idx → α) : select c a b = a := by
  funext i
  show Scalar.select (c i) (a i) (b i) = a i
  rw [hc]
  unfold Scalar.select
  exact if_pos rfl

end Cert.IndexRange
-- ==== Proof.KernelValue.lean ====
/-
  The idealized kernel program's result as a function of its arguments, when every index is a word below 100000.

  With such indices a fill-mode lookup is a plain lookup: adding 100000 to negative indices changes nothing, every
  edge's start index is in 0 … 99999, so the validity mask is all ones and the selection keeps the looked-up values.
  Then the contents at the last segment boundary unfold, region by region and host stretch by host stretch:
    result = normalize w (collected totals of the source nodes),   w = score (rows of table 1 at src) (rows of table 2 at dst),
  which is Spec.edgeWeights at the kernel program's own gather and scatter dimension numbers.
-/
import proofs.«425733_j5463198400723_2_alg».proof.Proof.KernelHost
import proofs.«425733_j5463198400723_2_alg».proof.Proof.ScoreRegion
import proofs.«425733_j5463198400723_2_alg».proof.Proof.NormalizeRegion
import proofs.«425733_j5463198400723_2_alg».proof.Proof.IndexRange

set_option maxRecDepth 16384

noncomputable section

namespace Cert.KernelIdeal.Glue

open Cert.KernelIdeal Cert.KernelIdeal.Gen
open Idealize.ShloMosaic Idealize.ShloMosaic.TcCoe
open Idealize.SL Idealize.SL.Sem

section Lookups
variable {F : FTy → Type} [FloatOps F]
variable (x : IVec S3200000 32) (hx : ∀ i, (x i).toNat < 100000)

include hx in
/-- The start indices of in-range indices are the indices themselves, as a column. -/
theorem startIdx_eq : startIdx x = broadcastInDim S3200000x1 ![0] bcast_S3200000_S3200000x1_0 x := by
  unfold startIdx
  rw [Cert.IndexRange.wrap_eq x (broadcastInDim S3200000 ![] bcast_S_S3200000 (constantI S_ 32 0#32)) _ (fun _ => rfl) hx]

include hx in
/-- Every edge's start index is valid. -/
theorem valid_eq : valid (broadcastInDim S3200000x1 ![0] bcast_S3200000_S3200000x1_0 x) = fun _ => 1#1 := by
  unfold valid
  exact Cert.IndexRange.inRange_all _ _ _ (fun _ => rfl) (fun _ => rfl) (fun j => hx _) _ _ _ rfl

include hx in
/-- A fill-mode lookup of rows at in-range indices is the plain lookup. -/
theorem takeRows_eq (tab : FVec F S100000x16 .f32) :
    takeRows tab x = Host.gather gather_S100000x16_S3200000x1_S3200000x16_1_0_n_n_0_1_116 tab
      (broadcastInDim S3200000x1 ![0] bcast_S3200000_S3200000x1_0 x) := by
  unfold takeRows
  rw [startIdx_eq x hx]
  exact Cert.IndexRange.select_ones _ (fun i => by rw [valid_eq x hx]; rfl) _ _

include hx in
/-- A fill-mode lookup of single numbers at in-range indices is the plain lookup. -/
theorem takeOne_eq (v : FVec F S100000 .f32) :
    takeOne v x = Host.gather gather_S100000_S3200000x1_S3200000_n_0_n_n_0_1_1 v
      (broadcastInDim S3200000x1 ![0] bcast_S3200000_S3200000x1_0 x) := by
  unfold takeOne
  rw [startIdx_eq x hx]
  exact Cert.IndexRange.select_ones _ (fun i => by rw [valid_eq x hx]) _ _

end Lookups

variable (m : (ℓ : Loc nD τ sig) → Buf (Elt Ideal) ℓ) (ρ : Dev nD → PrngReg)

/-- The result array's contents at the last segment boundary: the whole computation of the arguments. -/
theorem result_eq (c : Dev nD)
    (hsrc : ∀ i, (m ((c : Thread nD τ).loc main_arg0) i).toNat < 100000)
    (hdst : ∀ i, (m ((c : Thread nD τ).loc main_arg1) i).toNat < 100000) :
    W6 m ρ c (Proc.devRef .tc main_v7)
      = Spec.edgeWeights gather_S100000x16_S3200000x1_S3200000x16_1_0_n_n_0_1_116 gather_S100000_S3200000x1_S3200000_n_0_n_n_0_1_1
          scatter_S100000_S3200000x1_S3200000_n_0_0_1 bcast_S3200000_S3200000x1_0 bcast_S_S100000
          (m ((c : Thread nD τ).loc main_arg0)) (m ((c : Thread nD τ).loc main_arg1))
          (m ((c : Thread nD τ).loc main_arg2)) (m ((c : Thread nD τ).loc main_arg3)) := by
  have hw : V5 m ρ c main_v2 = Spec.rowScore
      (Host.gather gather_S100000x16_S3200000x1_S3200000x16_1_0_n_n_0_1_116 (m ((c : Thread nD τ).loc main_arg2))
        (broadcastInDim S3200000x1 ![0] bcast_S3200000_S3200000x1_0 (m ((c : Thread nD τ).loc main_arg0))))
      (Host.gather gather_S100000x16_S3200000x1_S3200000x16_1_0_n_n_0_1_116 (m ((c : Thread nD τ).loc main_arg3))
        (broadcastInDim S3200000x1 ![0] bcast_S3200000_S3200000x1_0 (m ((c : Thread nD τ).loc main_arg1)))) := by
    rw [entry_w, Score.final (V2 m ρ) c, entry_x, entry_y, takeRows_eq _ hsrc, takeRows_eq _ hdst]
  have hr : V5 m ρ c main_v6 = (Host.gather gather_S100000_S3200000x1_S3200000_n_0_n_n_0_1_1
      (collect (F := Ideal) (m ((c : Thread nD τ).loc main_arg0)) (V5 m ρ c main_v2))
      (broadcastInDim S3200000x1 ![0] bcast_S3200000_S3200000x1_0 (m ((c : Thread nD τ).loc main_arg0))) : FVec Ideal S3200000 .f32) := by
    rw [entry_r, takeOne_eq _ hsrc, entry_w]
  rw [show W6 m ρ c (Proc.devRef .tc main_v7) = (dat1 (V5 m ρ) c).arrAt 2 cfg1.N from W6_arr m ρ c 2,
    Normalize.final (V5 m ρ) c, hr, hw]
  rfl

end Cert.KernelIdeal.Glue

end
-- ==== Proof.RefValue.lean ====
/-
  The reference, read as a value.

  With every index a word below 100000 the reference's "add 100000 to a negative index" steps change nothing, so its
  three row lookups read at the indices themselves. Its weight stage, 1 / (1 + exp (-(0 + Σ_k x(e,k)·y(e,k)))), is the
  score of the two looked-up rows: on the extended reals the logistic function is that very expression, the word
  0x3F800000 is the number 1 and the word 0 is the number 0. Its last stage is the normalization. So the reference's
  result is Spec.edgeWeights at the reference's own gather and scatter dimension numbers.
-/
import proofs.«425733_j5463198400723_2_alg».proof.Proof.Gen.ReferenceIdeal.Read
import proofs.«425733_j5463198400723_2_alg».proof.Proof.Spec
import proofs.«425733_j5463198400723_2_alg».proof.Proof.IndexRange
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- The single-precision word of 1.0 is the number 1. -/
theorem one_word : Ideal.ofBits .f32 0x3F800000#32 = 1 := by
  simp [Ideal.ofBits, Ideal.ieee, -EReal.coe_mul]; norm_num

variable (x0 x1 : (⟨S3200000, .i32⟩ : BufTy).Contents (Elt Ideal)) (x2 x3 : (⟨S100000x16, .f32⟩ : BufTy).Contents (Elt Ideal))

/-- The reference's weight stage is the score of its two looked-up row arrays. -/
theorem weights_eq : val_main_v21 (F := Ideal) x0 x1 x2 x3 = Spec.rowScore (val_main_v6 (F := Ideal) x0 x2) (val_main_v13 (F := Ideal) x1 x3) := by
  funext i
  rw [val_main_v21_apply, val_main_v20_apply, val_main_cst_4_apply, val_main_v19_apply, val_main_v18_apply, val_main_cst_3_apply,
    val_main_v17_apply, val_main_v16_apply, val_main_v15_apply, val_main_cst_apply]
  simp only [val_main_v14_apply]
  show Ideal.div (Ideal.ofBits .f32 0x3F800000#32) (Ideal.ofBits .f32 0x3F800000#32 + Ideal.exp (-(Ideal.ofBits .f32 0x00000000#32
      + ∑ k : Fin 16, val_main_v6 (F := Ideal) x0 x2 (idx_main_v15 i k) * val_main_v13 (F := Ideal) x1 x3 (idx_main_v15 i k))))
    = Ideal.div 1 (1 + Ideal.exp (-(∑ k : Fin 16, val_main_v6 (F := Ideal) x0 x2 (Spec.rowEntry i k) * val_main_v13 (F := Ideal) x1 x3 (Spec.rowEntry i k))))
  rw [one_word, Ideal.ofBits_zero_f32, zero_add]
  have e : ∀ k : Fin 16, idx_main_v15 i k = Spec.rowEntry i k := fun k =>
    funext fun a => Fin.ext (by match a with | ⟨0, _⟩ => rfl | ⟨1, _⟩ => rfl)
  simp only [e]

variable (hx0 : ∀ i, (x0 i).toNat < 100000) (hx1 : ∀ i, (x1 i).toNat < 100000)

include hx0 in
/-- The wrap of the source indices before the first table lookup changes nothing. -/
theorem wrap_src : val_main_v4 (F := Ideal) x0 = x0 := by
  unfold val_main_v4 val_main_v1
  exact Cert.IndexRange.wrap_eq x0 _ _ (fun i => by rw [val_main_v0_apply]; rfl) hx0

include hx1 in
/-- The wrap of the destination indices changes nothing. -/
theorem wrap_dst : val_main_v11 (F := Ideal) x1 = x1 := by
  unfold val_main_v11 val_main_v8
  exact Cert.IndexRange.wrap_eq x1 _ _ (fun i => by rw [val_main_v7_apply]; rfl) hx1

include hx0 in
/-- The wrap of the source indices before the lookup of the collected totals changes nothing. -/
theorem wrap_src' : val_main_v29 (F := Ideal) x0 = x0 := by
  unfold val_main_v29 val_main_v26
  exact Cert.IndexRange.wrap_eq x0 _ _ (fun i => by rw [val_main_v25_apply]; rfl) hx0

include hx0 hx1 in
/-- The reference's result is the whole computation at its own dimension numbers. -/
theorem result_eq : val_main_v34 (F := Ideal) x0 x1 x2 x3
    = Spec.edgeWeights gather_S100000x16_S3200000x1_S3200000x16_1_0_n_n_0_1_116 gather_S100000_S3200000x1_S3200000_n_0_n_n_0_1_1
        scatter_S100000_S3200000x1_S3200000_n_0_0_1 bcast_S3200000_S3200000x1_0 bcast_S_S100000 x0 x1 x2 x3 := by
  have hn : val_main_v34 (F := Ideal) x0 x1 x2 x3
      = Spec.normalize (val_main_v21 (F := Ideal) x0 x1 x2 x3) (val_main_v31 (F := Ideal) x0 x1 x2 x3) := by
    funext i
    rw [val_main_v34_apply, val_main_v33_apply, val_main_v32_apply, val_main_cst_8_apply]
    rfl
  rw [hn]
  unfold val_main_v31 val_main_v24 val_main_v30 val_main_v23 val_main_v22 val_main_cst_5
  rw [weights_eq, wrap_src' x0 hx0]
  unfold val_main_v6 val_main_v13 val_main_v5 val_main_v12
  rw [wrap_src x0 hx0, wrap_dst x1 hx1]
  rfl

end Cert.ReferenceIdeal.RefValue

end
-- ==== Proof.PreRange.lean ====
/-
  What the precondition says about the two index arrays.

  The precondition is a conjunction of four "all" tests: every entry of each table is finite, and every source index
  and every destination index s satisfies 0 ≤ s and s < 100000 (signed). An "all" test that holds, holds at every
  entry; and the two signed comparisons at an entry say that the word, read as a natural number, is below 100000.
  Only the two index ranges are used: the two programs perform the same arithmetic, so finiteness plays no part.
-/
import proofs.«425733_j5463198400723_2_alg».proof.Proof.Gen.Pre_finite_inputs
import proofs.«425733_j5463198400723_2_alg».proof.Proof.IndexRange
import Idealize.ShloMosaic.Lib.ReduceAll
import Idealize.ShloMosaic.Lib.ValueIdx
import Idealize.ShloMosaic.PureOps.Ideal

namespace Cert.PreRange

open Idealize.ShloMosaic Cert.Pre_finite_inputs

instance : Subsingleton S_.Idx := ⟨fun a b => funext fun d => d.elim0⟩

/-- An index array that passes the test "0 ≤ s and s < 100000 everywhere" has every word below 100000. -/
theorem range_of_all (x lo hi : IVec S3200000 32) (hlo : ∀ i, lo i = 0#32) (hhi : ∀ i, hi i = 100000#32) (init : IVec S_ 1)
    (h : S3200000.ReducesTo [0] S_) (hu : 0 < S_.numel) (j : S_.Idx)
    (e : Host.reduce IntOp.andi (andi (cmpi .sge x lo) (cmpi .slt x hi)) init h hu j = 1#1) (i : S3200000.Idx) :
    (x i).toNat < 100000 := by
  have hi' : IntOp.andi (IntOp.cmpi .sge (x i) (lo i)) (IntOp.cmpi .slt (x i) (hi i)) = 1#1 :=
    Host.reduce_andi_all (andi (cmpi .sge x lo) (cmpi .slt x hi)) init h hu j e i
  rw [hlo, hhi] at hi'
  obtain ⟨a, b⟩ := IntOp.andi_eq_one.1 hi'
  exact Cert.IndexRange.toNat_lt_of_cmp a b

/-- Under the precondition every source index and every destination index is a word below 100000. -/
theorem ranges (src dst : IVec S3200000 32) (e1 e2 : FVec Ideal S100000x16 .f32)
    (h : fn (F := Ideal) src dst e1 e2 = fun _ => 1#1) :
    (∀ i, (src i).toNat < 100000) ∧ (∀ i, (dst i).toNat < 100000) := by
  have h0 := congrFun h ValueIdx.ix0
  dsimp only [fn, fn_part1] at h0
  obtain ⟨h123, h4⟩ := IntOp.andi_eq_one.1 h0
  obtain ⟨h12, h3⟩ := IntOp.andi_eq_one.1 h123
  exact ⟨fun i => range_of_all src _ _ (fun _ => rfl) (fun _ => rfl) _ _ _ _ h3 i,
         fun i => range_of_all dst _ _ (fun _ => rfl) (fun _ => rfl) _ _ _ _ h4 i⟩

end Cert.PreRange
-- ==== Proof.lean ====
/-
  Edge weights of a graph layer, normalized per source node: the kernel program against its reference.

  Both programs take 3200000 edges (src(e), dst(e)) and two tables of 100000 rows of 16 numbers. Edge e gets the weight
      w(e) = 1 / (1 + exp (-(Σ_k emb1[src(e), k] · emb2[dst(e), k]))),
  every node collects the weights of the edges leaving it, and the result at e is w(e) / (collected(src(e)) + ε).
  The kernel program computes w and the final quotient in two tiled kernels (blocks of 5120 and of 640000 edges) and
  does its three row lookups in "fill" mode; the reference does everything with whole-array host operations and plain
  lookups. The precondition says that the tables are finite and that every index lies in 0 … 99999, the range of the
  rows it names. Under it a fill-mode lookup is a plain lookup, the blocks of each kernel tile the edges, and both
  programs end at one and the same function of the arguments (Spec.edgeWeights), on the extended reals, with the same
  operations in the same order: no algebraic law and no finiteness is used.
  The three frames are the generated ones; the idealization rewrote nothing, so "preserves" is the trivial statement.
-/
import proofs.«425733_j5463198400723_2_alg».proof.Defs
import proofs.«425733_j5463198400723_2_alg».proof.Proof.Gen.Kernel
import proofs.«425733_j5463198400723_2_alg».proof.Proof.Gen.Kernel.Skeleton
import proofs.«425733_j5463198400723_2_alg».proof.Proof.Gen.Kernel.Launch
import proofs.«425733_j5463198400723_2_alg».proof.Proof.Gen.Kernel.Points
import proofs.«425733_j5463198400723_2_alg».proof.Proof.Gen.Kernel.Frame
import proofs.«425733_j5463198400723_2_alg».proof.Proof.Gen.KernelIdeal
import proofs.«425733_j5463198400723_2_alg».proof.Proof.Gen.KernelIdeal.Skeleton
import proofs.«425733_j5463198400723_2_alg».proof.Proof.Gen.KernelIdeal.Launch
import proofs.«425733_j5463198400723_2_alg».proof.Proof.Gen.KernelIdeal.Points
import proofs.«425733_j5463198400723_2_alg».proof.Proof.Gen.KernelIdeal.Frame
import proofs.«425733_j5463198400723_2_alg».proof.Proof.Gen.ReferenceIdeal
import proofs.«425733_j5463198400723_2_alg».proof.Proof.Gen.Pre_finite_inputs
import proofs.«425733_j5463198400723_2_alg».proof.Proof.Gen.ReferenceIdeal.Run
import proofs.«425733_j5463198400723_2_alg».proof.Proof.Gen.ReferenceIdeal.Read
import proofs.«425733_j5463198400723_2_alg».proof.Proof.KernelRun
import proofs.«425733_j5463198400723_2_alg».proof.Proof.KernelValue
import proofs.«425733_j5463198400723_2_alg».proof.Proof.RefValue
import proofs.«425733_j5463198400723_2_alg».proof.Proof.PreRange
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The idealized kernel program's run with its result read: under the precondition the result array ends at the
    whole computation of the arguments. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v7)
          = Cert.Spec.edgeWeights Cert.KernelIdeal.gather_S100000x16_S3200000x1_S3200000x16_1_0_n_n_0_1_116
              Cert.KernelIdeal.gather_S100000_S3200000x1_S3200000_n_0_n_n_0_1_1 Cert.KernelIdeal.scatter_S100000_S3200000x1_S3200000_n_0_0_1
              Cert.KernelIdeal.Gen.bcast_S3200000_S3200000x1_0 Cert.KernelIdeal.Gen.bcast_S_S100000
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono
    (fun r h c => ⟨(h c).1.trans (Cert.KernelIdeal.Glue.result_eq m ρ c (Cert.PreRange.ranges _ _ _ _ (hpre c)).1 (Cert.PreRange.ranges _ _ _ _ (hpre c)).2), (h c).2⟩)
    (Cert.KernelIdeal.Named.run_named m ρ)

/-- From memories that agree on the arguments both idealized programs end at the whole computation of the arguments:
    the kernel program by its run read region by region, the reference by its run read operation by operation; the
    two programs' gather and scatter dimension numbers are the same records. -/
theorem algebraic : Cert.algebraic_KernelIdeal_ReferenceIdeal := by
  intro m ρ m' ρ' hpre hagree
  refine ⟨_, kernel_run m ρ hpre, ?_⟩
  refine (θ_run Cert.ReferenceIdeal.defs _ _).mono (fun _ h c => ⟨(h c).1.trans ?_, (h c).2⟩)
    (Cert.ReferenceIdeal.Value.run (F := Ideal) m' ρ')
  have hr := Cert.PreRange.ranges _ _ _ _ (hpre c)
  rw [Cert.ReferenceIdeal.Read.val_main_v34_eq, (hagree c).1, (hagree c).2.1, (hagree c).2.2.1, (hagree c).2.2.2]
  rw [Cert.ReferenceIdeal.RefValue.result_eq _ _ _ _ hr.1 hr.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
